-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S8x4096 : Shape := ⟨2, ![8, 4096]⟩
abbrev S8x256x512 : Shape := ⟨3, ![8, 256, 512]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S8x256x512 : S_.BroadcastsInDim S8x256x512 (![] : Fin 0 → Fin S8x256x512.rank)
  reducesTo_S8x256x512_S_d0_1_2 : S8x256x512.ReducesTo [0, 1, 2] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : IVec S8x4096 32) (main_arg2 : FVec F S8x256x512 .f32) (main_arg3 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S8x256x512 .f32 := Host.absf main_arg2
  let main_cst_0 : FVec F S_ .f32 := constant S_ .f32 0x7F800000#32
  let main_v5 : FVec F S8x256x512 .f32 := broadcastInDim S8x256x512 ![] bcast_S_S8x256x512 main_cst_0
  let main_v6 : IVec S8x256x512 1 := cmpf .olt main_v4 main_v5
  let main_c_1 : IVec S_ 1 := constantI S_ 1 1#1
  let main_v7 : IVec S_ 1 := (fun x v => Host.reduce IntOp.andi x v reducesTo_S8x256x512_S_d0_1_2 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S8x4096 : Shape := ⟨2, ![8, 4096]⟩
abbrev S8x256x512 : Shape := ⟨3, ![8, 256, 512]⟩
abbrev S4096 : Shape := ⟨1, ![4096]⟩
abbrev S_ : Shape := ⟨0, ![]⟩
abbrev S8x4096x1 : Shape := ⟨3, ![8, 4096, 1]⟩
abbrev S8x4096x512 : Shape := ⟨3, ![8, 4096, 512]⟩
abbrev S4096x8x512 : Shape := ⟨3, ![4096, 8, 512]⟩
abbrev S4096x4096 : Shape := ⟨2, ![4096, 4096]⟩
abbrev S8192x4096 : Shape := ⟨2, ![8192, 4096]⟩
abbrev S1x4096 : Shape := ⟨2, ![1, 4096]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 21
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S8x4096, .i32⟩
  | .hbm, ⟨2, _⟩ => ⟨S8x256x512, .f32⟩
  | .hbm, ⟨3, _⟩ => ⟨S4096, .f32⟩
  | .hbm, ⟨4, _⟩ => ⟨S_, .i32⟩
  | .hbm, ⟨5, _⟩ => ⟨S8x4096, .i32⟩
  | .hbm, ⟨6, _⟩ => ⟨S8x4096, .i1⟩
  | .hbm, ⟨7, _⟩ => ⟨S_, .i32⟩
  | .hbm, ⟨8, _⟩ => ⟨S8x4096, .i32⟩
  | .hbm, ⟨9, _⟩ => ⟨S8x4096, .i32⟩
  | .hbm, ⟨10, _⟩ => ⟨S8x4096, .i32⟩
  | .hbm, ⟨11, _⟩ => ⟨S8x4096x1, .i32⟩
  | .hbm, ⟨12, _⟩ => ⟨S8x4096x512, .f32⟩
  | .hbm, ⟨13, _⟩ => ⟨S4096x8x512, .f32⟩
  | .hbm, ⟨14, _⟩ => ⟨S4096x4096, .f32⟩
  | .hbm, ⟨15, _⟩ => ⟨S8192x4096, .f32⟩
  | .hbm, ⟨16, _⟩ => ⟨S8192x4096, .bf16⟩
  | .hbm, ⟨17, _⟩ => ⟨S4096x4096, .bf16⟩
  | .hbm, ⟨18, _⟩ => ⟨S1x4096, .f32⟩
  | .hbm, ⟨19, _⟩ => ⟨S8192x4096, .f32⟩
  | .hbm, ⟨20, _⟩ => ⟨S4x2048x4096, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | .local _ .vmem, ⟨8, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  transposes_S8x4096x512_S4096x8x512_1_0_2 : S8x4096x512.Transposes [1, 0, 2] S4096x8x512
  shapeCasts_S4096x8x512_S4096x4096 : S4096x8x512.ShapeCasts S4096x4096
  shapeCasts_S4x2048x4096_S8192x4096 : S4x2048x4096.ShapeCasts S8192x4096
  bitsLt_bf16_f32 : FTy.bits .bf16 < FTy.bits .f32
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S8192x4096_S4x2048x4096 : S8192x4096.ShapeCasts S4x2048x4096
  gather_S8x256x512_S8x4096x1_S8x4096x512_2_1_0_0_1_2_11512_wf : GatherDims.WF S8x256x512 S8x4096x1 S8x4096x512 [2] [1] [0] [1] [0] 2 ![1, 1, 512]
  dot_S2048x1024_S1024x1024_S2048x1024_1_0_0_1_n_n_wf : DotDims.WF S2048x1024 S1024x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x4096.size a
  hwx0_0 : ∀ i : grid0.Coords, EltTy.bits .bf16 = 32 ∨ (Rect.block (s := S8192x4096) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S8192x4096.size a
  hwx0_3 : ∀ i : grid0.Coords, EltTy.bits .f32 = 32 ∨ (Rect.block (s := S8192x4096) S2048x1024.size (cc0_transform_3 i) (hinb0_3 i)).WholeWords (EltTy.packing .f32)

variable [Facts₀]

def gather_S8x256x512_S8x4096x1_S8x4096x512_2_1_0_0_1_2_11512 : GatherDims S8x256x512 S8x4096x1 S8x4096x512 where
  offsetDims := [2]
  collapsedSliceDims := [1]
  operandBatchingDims := [0]
  startIndicesBatchingDims := [0]
  startIndexMap := [1]
  indexVectorDim := 2
  sliceSizes := ![1, 1, 512]
  wf := gather_S8x256x512_S8x4096x1_S8x4096x512_2_1_0_0_1_2_11512_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf

abbrev win0_0 : Pipeline.Window sig grid0 :=
  Pipeline.Window.ofSpec (Memref.whole main_v10) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S8x4096 : Shape := ⟨2, ![8, 4096]⟩
abbrev S8x256x512 : Shape := ⟨3, ![8, 256, 512]⟩
abbrev S4096 : Shape := ⟨1, ![4096]⟩
abbrev S_ : Shape := ⟨0, ![]⟩
abbrev S8x4096x1 : Shape := ⟨3, ![8, 4096, 1]⟩
abbrev S8x4096x512 : Shape := ⟨3, ![8, 4096, 512]⟩
abbrev S8x512x4096 : Shape := ⟨3, ![8, 512, 4096]⟩
abbrev S4096x4096 : Shape := ⟨2, ![4096, 4096]⟩
abbrev S1x1x4096 : Shape := ⟨3, ![1, 1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S8x4096, .i32⟩
  | .hbm, ⟨2, _⟩ => ⟨S8x256x512, .f32⟩
  | .hbm, ⟨3, _⟩ => ⟨S4096, .f32⟩
  | .hbm, ⟨4, _⟩ => ⟨S_, .i32⟩
  | .hbm, ⟨5, _⟩ => ⟨S8x4096, .i32⟩
  | .hbm, ⟨6, _⟩ => ⟨S8x4096, .i1⟩
  | .hbm, ⟨7, _⟩ => ⟨S_, .i32⟩
  | .hbm, ⟨8, _⟩ => ⟨S8x4096, .i32⟩
  | .hbm, ⟨9, _⟩ => ⟨S8x4096, .i32⟩
  | .hbm, ⟨10, _⟩ => ⟨S8x4096, .i32⟩
  | .hbm, ⟨11, _⟩ => ⟨S8x4096x1, .i32⟩
  | .hbm, ⟨12, _⟩ => ⟨S8x4096x512, .f32⟩
  | .hbm, ⟨13, _⟩ => ⟨S8x512x4096, .f32⟩
  | .hbm, ⟨14, _⟩ => ⟨S4096x4096, .f32⟩
  | .hbm, ⟨15, _⟩ => ⟨S4x2048x4096, .f32⟩
  | .hbm, ⟨16, _⟩ => ⟨S1x1x4096, .f32⟩
  | .hbm, ⟨17, _⟩ => ⟨S4x2048x4096, .f32⟩
  | .hbm, ⟨18, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  transposes_S8x4096x512_S8x512x4096_0_2_1 : S8x4096x512.Transposes [0, 2, 1] S8x512x4096
  shapeCasts_S8x512x4096_S4096x4096 : S8x512x4096.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  gather_S8x256x512_S8x4096x1_S8x4096x512_2_1_0_0_1_2_11512_wf : GatherDims.WF S8x256x512 S8x4096x1 S8x4096x512 [2] [1] [0] [1] [0] 2 ![1, 1, 512]
  dot_S4x2048x4096_S4096x4096_S4x2048x4096_2_1_01_0_n_n_wf : DotDims.WF S4x2048x4096 S4096x4096 S4x2048x4096 [2] [1] [0, 1] [0] [] []

variable [Facts₀]

def gather_S8x256x512_S8x4096x1_S8x4096x512_2_1_0_0_1_2_11512 : GatherDims S8x256x512 S8x4096x1 S8x4096x512 where
  offsetDims := [2]
  collapsedSliceDims := [1]
  operandBatchingDims := [0]
  startIndicesBatchingDims := [0]
  startIndexMap := [1]
  indexVectorDim := 2
  sliceSizes := ![1, 1, 512]
  wf := gather_S8x256x512_S8x4096x1_S8x4096x512_2_1_0_0_1_2_11512_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Spec.lean ====
/-
  The dequantized linear layer, as ONE function of the arrays.

  A weight of 4096 output columns is stored as 8 codebooks: output column `o` belongs to codebook `o / 512` and is
  entry `o % 512` of the code word that input feature `k` selects there. With `g h k d` the selected code word's
  entry (the gathered array, [8, 4096, 512]), the layer is

      y[b, s, o] = (∑ k < 4096, x[b, s, k] · g[o / 512, k, o % 512]) + bias[o].

  Both programs compute this; the kernel cuts the sum over `k` into four consecutive stretches of 1024 and adds them
  up one after the other, which is the same sum in a commutative monoid (`sum_stretches`; no finiteness is needed:
  only associativity of `+` is used).
-/
import Idealize.ShloMosaic.Lib.ValueIdx

noncomputable section

open scoped BigOperators

namespace Cert.CodebookLinear

open Idealize.ShloMosaic Idealize.ShloMosaic.ValueIdx

/-- The codebook an output column belongs to. -/
abbrev bookOf (o : Fin 4096) : Fin 8 := ⟨o.val / 512, by have := o.isLt; omega⟩
/-- The column's entry inside a code word. -/
abbrev slotOf (o : Fin 4096) : Fin 512 := ⟨o.val % 512, Nat.mod_lt _ (by decide)⟩

/-- Position `r` of stretch `b` of the contracted axis: `1024 · b + r`. -/
abbrev inStretch (b : Fin 4) (r : Fin 1024) : Fin 4096 := ⟨1024 * b.val + r.val, by have := b.isLt; have := r.isLt; omega⟩

/-- The layer's result at `(b, s, o)`. -/
def linear (x : (⟨3, ![4, 2048, 4096]⟩ : Shape).Idx → EReal) (g : (⟨3, ![8, 4096, 512]⟩ : Shape).Idx → EReal)
    (bias : (⟨1, ![4096]⟩ : Shape).Idx → EReal) : (⟨3, ![4, 2048, 4096]⟩ : Shape).Idx → EReal :=
  fun i => (∑ k : Fin 4096, x (ix3 (i 0 : Fin 4) (i 1 : Fin 2048) k) * g (ix3 (bookOf (i 2)) k (slotOf (i 2))))
    + bias (ix1 (i 2 : Fin 4096))

/-- A sum over the 4096 positions is the sum, over the four stretches, of the sums inside each. -/
theorem sum_stretches {M : Type*} [AddCommMonoid M] (f : Fin 4096 → M) :
    ∑ k : Fin 4096, f k = ∑ b : Fin 4, ∑ r : Fin 1024, f (inStretch b r) := by
  rw [← Equiv.sum_comp (finProdFinEquiv (m := 4) (n := 1024)) f, Fintype.sum_prod_type]
  refine Finset.sum_congr rfl fun b _ => Finset.sum_congr rfl fun r _ => congrArg f (Fin.ext ?_)
  show r.val + 1024 * b.val = 1024 * b.val + r.val
  omega

/-- The stretches added one after the other, the first `n` of them (a stretch index past the fourth adds nothing). -/
def firstStretches {M : Type*} [AddCommMonoid M] (term : Fin 4 → M) (n : ℕ) : M :=
  ∑ b ∈ Finset.range n, if h : b < 4 then term ⟨b, h⟩ else 0

theorem firstStretches_one {M : Type*} [AddCommMonoid M] (term : Fin 4 → M) :
    firstStretches term 1 = term ⟨0, by decide⟩ := by
  unfold firstStretches
  rw [Finset.sum_range_one, dif_pos (by decide)]

theorem firstStretches_succ {M : Type*} [AddCommMonoid M] (term : Fin 4 → M) (n : ℕ) (h : n < 4) :
    firstStretches term (n + 1) = firstStretches term n + term ⟨n, h⟩ := by
  unfold firstStretches
  rw [Finset.sum_range_succ, dif_pos h]

theorem firstStretches_four {M : Type*} [AddCommMonoid M] (term : Fin 4 → M) :
    firstStretches term 4 = ∑ b : Fin 4, term b := by
  unfold firstStretches
  rw [Finset.sum_range]
  exact Finset.sum_congr rfl fun b _ => by rw [dif_pos b.isLt]

end Cert.CodebookLinear

end
-- ==== Proof.RefValue.lean ====
/-
  The reference's result, entry by entry, is the layer `linear`.

  The reference transposes the gathered array to [8, 512, 4096] and flattens the first two axes into the 4096 output
  columns, so that row `o` of its weight holds, at input feature `k`, the gathered entry `(o / 512, k, o % 512)`;
  it then contracts `x`'s last axis against the weight's and adds the bias along the last axis.
-/
import proofs.«149113_j3255585210641_1_alg».proof.Defs
import proofs.«149113_j3255585210641_1_alg».proof.Proof.Gen.ReferenceIdeal.Run
import proofs.«149113_j3255585210641_1_alg».proof.Proof.Gen.ReferenceIdeal.Read
import proofs.«149113_j3255585210641_1_alg».proof.Proof.Spec

noncomputable section

open scoped BigOperators

namespace Cert.ReferenceIdeal.RefValue

open Cert.ReferenceIdeal Cert.ReferenceIdeal.Read Idealize.ShloMosaic Idealize.ShloMosaic.ValueIdx Cert.CodebookLinear

/-- The weight's entry `(o, k)`, followed back through the flattening and the transposition, is the gathered entry
    `(o / 512, k, o % 512)`. -/
theorem weight_idx (i : S4x2048x4096.Idx) (k : Fin 4096) :
    idx_main_v7 (idx_main_v8 (ridx_main_v9 i k)) = ix3 (bookOf (i 2)) k (slotOf (i 2)) := by
  funext a
  apply Fin.ext
  have h2 : (i 2).val < 4096 := (i 2).isLt
  have hk : k.val < 4096 := k.isLt
  match a with
  | ⟨0, _⟩ => show ((i 2).val * 4096 + k.val) / 2097152 = (i 2).val / 512; omega
  | ⟨1, _⟩ => show ((i 2).val * 4096 + k.val) % 4096 = k.val; omega
  | ⟨2, _⟩ => show ((i 2).val * 4096 + k.val) / 4096 % 512 = (i 2).val % 512; omega

/-- The left operand is read at `(b, s, k)`. -/
theorem input_idx (i : S4x2048x4096.Idx) (k : Fin 4096) :
    lidx_main_v9 i k = ix3 (i 0 : Fin 4) (i 1 : Fin 2048) k :=
  funext fun a => Fin.ext (by match a with | ⟨0, _⟩ => rfl | ⟨1, _⟩ => rfl | ⟨2, _⟩ => rfl)

/-- The bias is read at the output column. -/
theorem bias_idx (i : S4x2048x4096.Idx) : idx_main_v10 (idx_main_v11 i) = ix1 (i 2 : Fin 4096) :=
  funext fun a => Fin.ext (by match a with | ⟨0, _⟩ => rfl)

/-- The reference's result is the layer over the gathered array. -/
theorem reference_eq (x0 : (⟨S4x2048x4096, .f32⟩ : BufTy).Contents (Elt Ideal)) (x1 : (⟨S8x4096, .i32⟩ : BufTy).Contents (Elt Ideal))
    (x2 : (⟨S8x256x512, .f32⟩ : BufTy).Contents (Elt Ideal)) (x3 : (⟨S4096, .f32⟩ : BufTy).Contents (Elt Ideal)) :
    val_main_v12 (F := Ideal) x0 x1 x2 x3 = linear x0 (val_main_v6 (F := Ideal) x1 x2) x3 := by
  funext i
  rw [val_main_v12_apply, val_main_v9_apply, val_main_v11_apply, val_main_v10_apply]
  simp only [val_main_v8_apply, val_main_v7_apply, weight_idx, input_idx, bias_idx]
  rfl

end Cert.ReferenceIdeal.RefValue

end
-- ==== Proof.Blocks.lean ====
/-
  The blocks the body sees, as pieces of the arrays the region finds.

  The 64 grid points are numbered row block first, column block next, stretch of the contracted axis last: point `t`
  works on row block `t / 16`, column block `t / 4 % 4` and stretch `t % 4`. There it sees

    * rows `2048 · (t / 16) + p` of the activations against positions `1024 · (t % 4) + r` of the contracted axis,
    * those positions of the weight against its columns `1024 · (t / 4 % 4) + q`,
    * and those columns of the bias row.

  The arrays themselves are what the host lines before the region make of the arguments: the activations flattened to
  [8192, 4096]; the gathered array transposed to [4096, 8, 512] and flattened to [4096, 4096]; the bias as one row.
-/
import proofs.«149113_j3255585210641_1_alg».proof.Proof.Gen.KernelIdeal.Frame
import proofs.«149113_j3255585210641_1_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Cert.CodebookLinear

variable {F : FTy → Type} [FloatOps F]
variable (m : (ℓ : Loc nD τ sig) → Buf (Elt F) ℓ)

/-! ## Names of literal type -/

abbrev xblk (c : Dev nD) (t : Fin cfg0.N) : Vec F S2048x1024 .bf16 := iblk m c 0 t
abbrev wblk (c : Dev nD) (t : Fin cfg0.N) : Vec F S1024x1024 .bf16 := iblk m c 1 t
abbrev bblk (c : Dev nD) (t : Fin cfg0.N) : Vec F S1x1024 .f32 := iblk m c 2 t
abbrev xarr (c : Dev nD) : Vec F S8192x4096 .bf16 := V m c main_v10
abbrev warr (c : Dev nD) : Vec F S4096x4096 .bf16 := V m c main_v11
abbrev barr (c : Dev nD) : Vec F S1x4096 .f32 := V m c main_v12

theorem lt64 (t : Fin cfg0.N) : t.val < 64 := lt_of_lt_of_eq t.isLt (show cfg0.N = 64 from N_0)

/-- Row `p` of point `t`'s row block. -/
abbrev rowAt (t : Fin cfg0.N) (p : Fin 2048) : Fin 8192 :=
  ⟨2048 * (t.val / 16) + p.val, by have := lt64 t; have := p.isLt; omega⟩
/-- Column `q` of point `t`'s column block. -/
abbrev colAt (t : Fin cfg0.N) (q : Fin 1024) : Fin 4096 :=
  ⟨1024 * (t.val / 4 % 4) + q.val, by have := q.isLt; omega⟩
/-- The stretch of the contracted axis point `t` works on. -/
abbrev stretchAt (t : Fin cfg0.N) : Fin 4 := ⟨t.val % 4, Nat.mod_lt _ (by decide)⟩

/-! ## The index maps, decided over the grid -/

theorem index_facts : ∀ t : Fin cfg0.N,
    win0_0.index t 0 = t.val / 16 ∧ win0_0.index t 1 = t.val % 4
    ∧ win0_1.index t 0 = t.val % 4 ∧ win0_1.index t 1 = t.val / 4 % 4
    ∧ win0_2.index t 0 = 0 ∧ win0_2.index t 1 = t.val / 4 % 4
    ∧ win0_3.index t 0 = t.val / 16 ∧ win0_3.index t 1 = t.val / 4 % 4 :=
  (by decide +kernel : ∀ t : Fin grid0.N,
    win0_0.index t 0 = t.val / 16 ∧ win0_0.index t 1 = t.val % 4
    ∧ win0_1.index t 0 = t.val % 4 ∧ win0_1.index t 1 = t.val / 4 % 4
    ∧ win0_2.index t 0 = 0 ∧ win0_2.index t 1 = t.val / 4 % 4
    ∧ win0_3.index t 0 = t.val / 16 ∧ win0_3.index t 1 = t.val / 4 % 4)

/-! ## Each block read where its window says -/

theorem xblk_at (c : Dev nD) (t : Fin cfg0.N) (p : Fin 2048) (r : Fin 1024) :
    xblk m c t (ix2 p r) = xarr m c (ix2 (rowAt t p) (inStretch (stretchAt t) r)) := by
  show iblk m c 0 t (ix2 p r) = V m c main_v10 _
  unfold iblk
  rw [View.read_apply]
  show V m c main_v10 _ = V m c main_v10 _
  refine congrArg (V m c main_v10) (funext fun a => Fin.ext ?_)
  match a with
  | ⟨0, _⟩ => show win0_0.index t 0 * 2048 + 1 * p.val = 2048 * (t.val / 16) + p.val; rw [(index_facts t).1]; omega
  | ⟨1, _⟩ => show win0_0.index t 1 * 1024 + 1 * r.val = 1024 * (t.val % 4) + r.val; rw [(index_facts t).2.1]; omega

theorem wblk_at (c : Dev nD) (t : Fin cfg0.N) (r : Fin 1024) (q : Fin 1024) :
    wblk m c t (ix2 r q) = warr m c (ix2 (inStretch (stretchAt t) r) (colAt t q)) := by
  show iblk m c 1 t (ix2 r q) = V m c main_v11 _
  unfold iblk
  rw [View.read_apply]
  show V m c main_v11 _ = V m c main_v11 _
  refine congrArg (V m c main_v11) (funext fun a => Fin.ext ?_)
  match a with
  | ⟨0, _⟩ => show win0_1.index t 0 * 1024 + 1 * r.val = 1024 * (t.val % 4) + r.val; rw [(index_facts t).2.2.1]; omega
  | ⟨1, _⟩ => show win0_1.index t 1 * 1024 + 1 * q.val = 1024 * (t.val / 4 % 4) + q.val; rw [(index_facts t).2.2.2.1]; omega

theorem bblk_at (c : Dev nD) (t : Fin cfg0.N) (q : Fin 1024) :
    bblk m c t (ix2 (0 : Fin 1) q) = barr m c (ix2 (0 : Fin 1) (colAt t q)) := by
  show iblk m c 2 t (ix2 (0 : Fin 1) q) = V m c main_v12 _
  unfold iblk
  rw [View.read_apply]
  show V m c main_v12 _ = V m c main_v12 _
  refine congrArg (V m c main_v12) (funext fun a => Fin.ext ?_)
  match a with
  | ⟨0, _⟩ => show win0_2.index t 0 * 1 + 1 * 0 = 0; rw [(index_facts t).2.2.2.2.1]
  | ⟨1, _⟩ => show win0_2.index t 1 * 1024 + 1 * q.val = 1024 * (t.val / 4 % 4) + q.val; rw [(index_facts t).2.2.2.2.2.1]; omega

/-! ## The arrays as the host lines before the region leave them -/

/-- The gathered array: each input feature's code word, per codebook. -/
def gathered (c : Dev nD) : Vec F S8x4096x512 .f32 :=
  Host.gather gather_S8x256x512_S8x4096x1_S8x4096x512_2_1_0_0_1_2_11512 (m ((c : Thread nD τ).loc main_arg2))
    (broadcastInDim S8x4096x1 ![0, 1] bcast_S8x4096_S8x4096x1_0_1
      (select (cmpi .slt (m ((c : Thread nD τ).loc main_arg1)) (broadcastInDim S8x4096 ![] bcast_S_S8x4096 (constantI S_ 32 0#32)))
        (addi (m ((c : Thread nD τ).loc main_arg1)) (broadcastInDim S8x4096 ![] bcast_S_S8x4096 (constantI S_ 32 256#32)))
        (m ((c : Thread nD τ).loc main_arg1))))

theorem xarr_eq (c : Dev nD) :
    xarr m c = truncf .bf16 (shapeCast S8192x4096 (m ((c : Thread nD τ).loc main_arg0)) shapeCasts_S4x2048x4096_S8192x4096) bitsLt_bf16_f32 := by
  show StableHlo.after hostOps0 (fun b => m (c, b)) (Proc.devRef .tc main_v10) = _
  after_results
  rfl

theorem warr_eq (c : Dev nD) :
    warr m c = truncf .bf16 (shapeCast S4096x4096 (transpose S4096x8x512 [1, 0, 2] (gathered m c) transposes_S8x4096x512_S4096x8x512_1_0_2)
      shapeCasts_S4096x8x512_S4096x4096) bitsLt_bf16_f32 := by
  show StableHlo.after hostOps0 (fun b => m (c, b)) (Proc.devRef .tc main_v11) = _
  after_results
  rfl

theorem barr_eq (c : Dev nD) :
    barr m c = shapeCast S1x4096 (m ((c : Thread nD τ).loc main_arg3)) shapeCasts_S4096_S1x4096 := by
  show StableHlo.after hostOps0 (fun b => m (c, b)) (Proc.devRef .tc main_v12) = _
  after_results
  rfl

end Cert.KernelIdeal.Blocks

end
-- ==== Proof.Pieces.lean ====
/-
  What one run of the body leaves behind, as values, in each of its three control cases.

  The body keeps a running block in its scratch buffer. At the first point of a run of four it stores the zero block
  and then the accumulation over it; at the later points it stores the accumulation over what the point before left;
  at the last point it also stores the output block: the accumulator it has just written, plus the bias row. Each is
  one store covering the whole buffer, so the buffer's contents afterwards are that store's payload, with every load
  of the body read back as the value the buffer held.
-/
import proofs.«149113_j3255585210641_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem origin : (![0, 0] : Fin 2 → Nat) = fun _ => 0 := funext fun a => by fin_cases a <;> rfl

/-- First point of a run: the scratch ends at the accumulation over the zero block. -/
theorem scratch_first (c : Dev nD) (i : grid0.Coords) (a3 : Memref sig .tc .vmem S2048x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S2048x1024 .f32) (h6 : a6.IsWhole) (a7 : Memref sig .tc .vmem S2048x1024 .f32) (h7 : a7.IsWhole) (hc0 : cond0_0 i) (hc1 : ¬cond0_1 i) (x0 : Vec F S2048x1024 .bf16) (x1 : Vec F S1024x1024 .bf16) (x2 : Vec F S1x1024 .f32) :
    sout0_A_0 c i a3 h3 a4 h4 a5 h5 a6 h6 a7 h7 hc0 hc1 x0 x1 x2 = k0_pay2 (k0_pay1 (F := F)) x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S2048x1024) origin, View.readCov_unit_zero (S := S2048x1024) _ origin]
  simp only [View.readAt_eq_ld, h3.read_unread, h4.read_unread, View.ld_unit_zero (S := S2048x1024) origin,
    View.ld_unit_zero (S := S1024x1024) origin]

/-- A middle point: the scratch ends at the accumulation over what it held. -/
theorem scratch_middle (c : Dev nD) (i : grid0.Coords) (a3 : Memref sig .tc .vmem S2048x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S2048x1024 .f32) (h6 : a6.IsWhole) (a7 : Memref sig .tc .vmem S2048x1024 .f32) (h7 : a7.IsWhole) (hc0 : ¬cond0_0 i) (hc1 : ¬cond0_1 i) (x0 : Vec F S2048x1024 .bf16) (x1 : Vec F S1024x1024 .bf16) (x2 : Vec F S1x1024 .f32) (xs : Vec F S2048x1024 .f32) :
    sout0_B_0 c i a3 h3 a4 h4 a5 h5 a6 h6 a7 h7 hc0 hc1 x0 x1 x2 xs = k0_pay2 xs x0 x1 := by
  unfold sout0_B_0
  rw [View.read_writes_eq_canon _ _ _ (scover0_B_0 c i a3 h3 a4 h4 a5 h5 a6 h6 a7 h7 hc0 hc1 x0 x1 x2 xs)]
  unfold kernelRun0_B
  dsimp only
  sl_unfold_words
  rw [View.canon_unit_zero origin]
  simp only [View.readAt_eq_ld, h3.read_unread, h4.read_unread, h7.read_unread, View.ld_unit_zero (S := S2048x1024) origin,
    View.ld_unit_zero (S := S1024x1024) origin]

/-- Last point of a run: the scratch again ends at the accumulation over what it held, -/
theorem scratch_last (c : Dev nD) (i : grid0.Coords) (a3 : Memref sig .tc .vmem S2048x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S2048x1024 .f32) (h6 : a6.IsWhole) (a7 : Memref sig .tc .vmem S2048x1024 .f32) (h7 : a7.IsWhole) (hc0 : ¬cond0_0 i) (hc1 : cond0_1 i) (x0 : Vec F S2048x1024 .bf16) (x1 : Vec F S1024x1024 .bf16) (x2 : Vec F S1x1024 .f32) (xs : Vec F S2048x1024 .f32) :
    sout0_C_0 c i a3 h3 a4 h4 a5 h5 a6 h6 a7 h7 hc0 hc1 x0 x1 x2 xs = k0_pay2 xs x0 x1 := by
  unfold sout0_C_0
  rw [View.read_writes_eq_canon _ _ _ (scover0_C_0 c i a3 h3 a4 h4 a5 h5 a6 h6 a7 h7 hc0 hc1 x0 x1 x2 xs)]
  unfold kernelRun0_C
  dsimp only
  sl_unfold_words
  rw [View.canon_unit_zero origin]
  simp only [View.readAt_eq_ld, h3.read_unread, h4.read_unread, h7.read_unread, View.ld_unit_zero (S := S2048x1024) origin,
    View.ld_unit_zero (S := S1024x1024) origin]

/-- and the output block at that accumulation plus the bias row. -/
theorem output_last (c : Dev nD) (i : grid0.Coords) (a3 : Memref sig .tc .vmem S2048x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S2048x1024 .f32) (h6 : a6.IsWhole) (a7 : Memref sig .tc .vmem S2048x1024 .f32) (h7 : a7.IsWhole) (hc0 : ¬cond0_0 i) (hc1 : cond0_1 i) (x0 : Vec F S2048x1024 .bf16) (x1 : Vec F S1024x1024 .bf16) (x2 : Vec F S1x1024 .f32) (xs : Vec F S2048x1024 .f32) :
    out0_C_3 c i a3 h3 a4 h4 a5 h5 a6 h6 a7 h7 hc0 hc1 x0 x1 x2 xs = k0_pay3 (k0_pay2 xs x0 x1) x2 := by
  unfold out0_C_3
  rw [View.read_writes_eq_canon _ _ _ (cover0_C_3 c i a3 h3 a4 h4 a5 h5 a6 h6 a7 h7 hc0 hc1 x0 x1 x2 xs)]
  unfold kernelRun0_C
  dsimp only
  sl_unfold_words
  rw [View.canon_unit_zero origin]
  simp only [View.readAt_eq_ld, h3.read_unread, h4.read_unread, h5.read_unread, h7.read_unread, View.ld_unit_zero (S := S2048x1024) origin,
    View.ld_unit_zero (S := S1024x1024) origin, View.ld_unit_zero (S := S1x1024) origin,
    View.readCov_unit_zero (S := S2048x1024) _ origin]

end Cert.KernelIdeal.Pieces

end
-- ==== Proof.Payload.lean ====
/-
  What the body's three stores hold, entry by entry, over the extended reals.

  * the reset stores the zero block;
  * the accumulation stores `acc[p, q] + ∑ r < 1024, a[p, r] · b[r, q]`: the matrix product of the two input blocks,
    added to what the accumulator held (a change of float format is the identity here, and the product starts from
    the zero block, so it is the plain sum over the contracted axis);
  * the last point of a run stores `acc[p, q] + bias[0, q]`: the bias row under every row of the block.
-/
import proofs.«149113_j3255585210641_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## The product's operand indices: rows from the left block, columns from the right, one contracted axis -/

theorem lhs_axis0 (i : S2048x1024.Idx) (q : dot_S2048x1024_S1024x1024_S2048x1024_1_0_0_1_n_n.contr.Idx) :
    (dot_S2048x1024_S1024x1024_S2048x1024_1_0_0_1_n_n.lhsIdx i q 0).val = (i 0).val := by
  unfold DotDims.lhsIdx
  rw [dif_neg (show ¬(0 : Fin S2048x1024.rank) ∈ dot_S2048x1024_S1024x1024_S2048x1024_1_0_0_1_n_n.lhsBatch by decide), dif_pos (show (0 : Fin S2048x1024.rank) ∈ dot_S2048x1024_S1024x1024_S2048x1024_1_0_0_1_n_n.lhsNonContracting by decide)]
  rfl
theorem lhs_axis1 (i : S2048x1024.Idx) (q : dot_S2048x1024_S1024x1024_S2048x1024_1_0_0_1_n_n.contr.Idx) :
    (dot_S2048x1024_S1024x1024_S2048x1024_1_0_0_1_n_n.lhsIdx i q 1).val = (q ⟨0, by decide⟩).val :=
  dot_S2048x1024_S1024x1024_S2048x1024_1_0_0_1_n_n.lhsIdx_val_of_single rfl i q
theorem rhs_axis0 (i : S2048x1024.Idx) (q : dot_S2048x1024_S1024x1024_S2048x1024_1_0_0_1_n_n.contr.Idx) :
    (dot_S2048x1024_S1024x1024_S2048x1024_1_0_0_1_n_n.rhsIdx i q 0).val = (q ⟨0, by decide⟩).val :=
  dot_S2048x1024_S1024x1024_S2048x1024_1_0_0_1_n_n.rhsIdx_val_of_single rfl i q
theorem rhs_axis1 (i : S2048x1024.Idx) (q : dot_S2048x1024_S1024x1024_S2048x1024_1_0_0_1_n_n.contr.Idx) :
    (dot_S2048x1024_S1024x1024_S2048x1024_1_0_0_1_n_n.rhsIdx i q 1).val = (i 1).val := by
  unfold DotDims.rhsIdx
  rw [dif_neg (show ¬(1 : Fin S1024x1024.rank) ∈ dot_S2048x1024_S1024x1024_S2048x1024_1_0_0_1_n_n.rhsBatch by decide), dif_pos (show (1 : Fin S1024x1024.rank) ∈ dot_S2048x1024_S1024x1024_S2048x1024_1_0_0_1_n_n.rhsNonContracting by decide)]
  rfl

/-- The block product from the zero block, at `(p, q)`: row `p` of the left block against column `q` of the right. -/
theorem product_at (a : FVec Ideal S2048x1024 .bf16) (b : FVec Ideal S1024x1024 .bf16) (p : Fin 2048) (q : Fin 1024) :
    matmul dot_S2048x1024_S1024x1024_S2048x1024_1_0_0_1_n_n none a b (constant S2048x1024 .f32 0x00000000#32) (ix2 p q)
      = ∑ r : Fin 1024, a (ix2 p r) * b (ix2 r q) := by
  simp only [matmul]
  rw [Ideal.matmul_constant_zero_apply, ← Equiv.sum_comp (contrEquiv1 dot_S2048x1024_S1024x1024_S2048x1024_1_0_0_1_n_n 1024 rfl rfl).symm]
  refine Finset.sum_congr rfl fun k _ => ?_
  have hk := contrEquiv1_symm_val dot_S2048x1024_S1024x1024_S2048x1024_1_0_0_1_n_n 1024 rfl rfl k
  have el : dot_S2048x1024_S1024x1024_S2048x1024_1_0_0_1_n_n.lhsIdx (ix2 p q) ((contrEquiv1 dot_S2048x1024_S1024x1024_S2048x1024_1_0_0_1_n_n 1024 rfl rfl).symm k) = ix2 p k := funext fun a => Fin.ext (by
    match a with
    | ⟨0, _⟩ => exact lhs_axis0 _ _
    | ⟨1, _⟩ => exact (lhs_axis1 _ _).trans hk)
  have er : dot_S2048x1024_S1024x1024_S2048x1024_1_0_0_1_n_n.rhsIdx (ix2 p q) ((contrEquiv1 dot_S2048x1024_S1024x1024_S2048x1024_1_0_0_1_n_n 1024 rfl rfl).symm k) = ix2 k q := funext fun a => Fin.ext (by
    match a with
    | ⟨0, _⟩ => exact (rhs_axis0 _ _).trans hk
    | ⟨1, _⟩ => exact rhs_axis1 _ _)
  rw [el, er]

/-- The reset's block is zero everywhere. -/
theorem reset_at (j : S2048x1024.Idx) : k0_pay1 (F := Ideal) j = 0 := by
  unfold k0_pay1
  simp only [shapeCast_self]
  exact Ideal.ofBits_zero_f32

/-- The accumulation's block at `(p, q)`. -/
theorem accumulate_at (acc : Vec Ideal S2048x1024 .f32) (a : Vec Ideal S2048x1024 .bf16) (b : Vec Ideal S1024x1024 .bf16)
    (p : Fin 2048) (q : Fin 1024) :
    k0_pay2 (F := Ideal) acc a b (ix2 p q) = acc (ix2 p q) + ∑ r : Fin 1024, a (ix2 p r) * b (ix2 r q) := by
  unfold k0_pay2
  simp only [shapeCast_self]
  rw [addf_apply, product_at]

/-- The closing block at `(p, q)`: the accumulator plus the bias row. -/
theorem close_at (acc : Vec Ideal S2048x1024 .f32) (bias : Vec Ideal S1x1024 .f32) (p : Fin 2048) (q : Fin 1024) :
    k0_pay3 (F := Ideal) acc bias (ix2 p q) = acc (ix2 p q) + bias (ix2 (0 : Fin 1) q) := by
  unfold k0_pay3
  simp only [shapeCast_self]
  rw [addf_apply, broadcastTo_1b_ab_apply]

end Cert.KernelIdeal.Payload

end
-- ==== Proof.Accum.lean ====
/-
  The running block, point by point.

  Fix a device. For a row `R` of the activations, a column `C` of the weight and a stretch `b` of the contracted
  axis, `stretchDot R C b` is that stretch's share of the product: `∑ r < 1024, X[R, 1024 b + r] · W[1024 b + r, C]`.
  After point `n` the scratch buffer holds, at `(p, q)`, the shares of the stretches `0 … n % 4` for the point's own
  row `2048 · (n / 16) + p` and column `1024 · (n / 4 % 4) + q`, added up in that order: the first point of a run of
  four starts from the zero block, each later one adds its share to what the point before left (which worked on the
  same rows and columns).
-/
import proofs.«149113_j3255585210641_1_alg».proof.Proof.Blocks
import proofs.«149113_j3255585210641_1_alg».proof.Proof.Pieces
import proofs.«149113_j3255585210641_1_alg».proof.Proof.Payload

noncomputable section

open scoped BigOperators

namespace Cert.KernelIdeal.Accum

open Cert.KernelIdeal Cert.KernelIdeal.Gen Cert.KernelIdeal.Blocks Cert.KernelIdeal.Pieces Cert.KernelIdeal.Payload
open Idealize.ShloMosaic Idealize.ShloMosaic.TcCoe Idealize.SL.Sem Idealize.ShloMosaic.ValueIdx Cert.CodebookLinear

variable (m : (ℓ : Loc nD τ sig) → Buf (Elt Ideal) ℓ)

/-- One stretch's share of the product at row `R`, column `C`. -/
def stretchDot (c : Dev nD) (R : Fin 8192) (C : Fin 4096) (b : Fin 4) : EReal :=
  ∑ r : Fin 1024, xarr m c (ix2 R (inStretch b r)) * warr m c (ix2 (inStretch b r) C)

/-- The product of a point's two blocks, at `(p, q)`, is its own stretch's share at its own row and column. -/
theorem blocks_dot (c : Dev nD) (t : Fin cfg0.N) (p : Fin 2048) (q : Fin 1024) :
    ∑ r : Fin 1024, xblk m c t (ix2 p r) * wblk m c t (ix2 r q)
      = stretchDot m c (rowAt t p) (colAt t q) (stretchAt t) := by
  unfold stretchDot
  exact Finset.sum_congr rfl fun r _ => by rw [xblk_at, wblk_at]

/-- After the first point of a run: the first share alone. -/
theorem after_first (c : Dev nD) (t : Fin cfg0.N) (h0 : t.val % 4 = 0) (p : Fin 2048) (q : Fin 1024) :
    (outsAt0 m c t.val t.isLt).2 (ix2 p q) = firstStretches (stretchDot m c (rowAt t p) (colAt t q)) 1 := by
  have h1 : ¬t.val % 4 = 3 := by omega
  rw [outsAt0_A m c t h0 h1]
  dsimp only
  refine (congrFun (scratch_first (F := Ideal) c (grid0.coords t) (ms0_0 t) (hs0_0 t) (ms0_1 t) (hs0_1 t) (ms0_2 t) (hs0_2 t) (ms0_3 t) (hs0_3 t) scM0_0 (Memref.isWhole_whole _)
    ((hcond0_0 t).mpr h0) (fun h => h1 ((hcond0_1 t).mp h)) (xblk m c t) (wblk m c t) (bblk m c t)) (ix2 p q)).trans ?_
  rw [accumulate_at, reset_at, zero_add, blocks_dot, firstStretches_one]
  exact congrArg _ (Fin.ext h0)

/-- After a later point: what the point before left, plus this point's share. -/
theorem after_later (c : Dev nD) (t : Fin cfg0.N) (h0 : ¬t.val % 4 = 0) (p : Fin 2048) (q : Fin 1024) :
    (outsAt0 m c t.val t.isLt).2 (ix2 p q)
      = (outsAt0 m c (t.val - 1) (Nat.lt_of_le_of_lt (Nat.sub_le _ _) t.isLt)).2 (ix2 p q)
        + stretchDot m c (rowAt t p) (colAt t q) (stretchAt t) := by
  by_cases h1 : t.val % 4 = 3
  · rw [outsAt0_C m c t h0 h1]
    dsimp only
    refine (congrFun (scratch_last (F := Ideal) c (grid0.coords t) (ms0_0 t) (hs0_0 t) (ms0_1 t) (hs0_1 t) (ms0_2 t) (hs0_2 t) (ms0_3 t) (hs0_3 t) scM0_0 (Memref.isWhole_whole _)
      (fun h => h0 ((hcond0_0 t).mp h)) ((hcond0_1 t).mpr h1) (xblk m c t) (wblk m c t) (bblk m c t)
      (outsAt0 m c (t.val - 1) (Nat.lt_of_le_of_lt (Nat.sub_le _ _) t.isLt)).2) (ix2 p q)).trans ?_
    rw [accumulate_at, blocks_dot]
  · rw [outsAt0_B m c t h0 h1]
    dsimp only
    refine (congrFun (scratch_middle (F := Ideal) c (grid0.coords t) (ms0_0 t) (hs0_0 t) (ms0_1 t) (hs0_1 t) (ms0_2 t) (hs0_2 t) (ms0_3 t) (hs0_3 t) scM0_0 (Memref.isWhole_whole _)
      (fun h => h0 ((hcond0_0 t).mp h)) (fun h => h1 ((hcond0_1 t).mp h)) (xblk m c t) (wblk m c t) (bblk m c t)
      (outsAt0 m c (t.val - 1) (Nat.lt_of_le_of_lt (Nat.sub_le _ _) t.isLt)).2) (ix2 p q)).trans ?_
    rw [accumulate_at, blocks_dot]

/-- THE RUNNING BLOCK: after point `n`, the shares of the stretches up to the point's own. -/
theorem scratch_eq (c : Dev nD) : ∀ (n : ℕ) (h : n < cfg0.N) (p : Fin 2048) (q : Fin 1024),
    (outsAt0 m c n h).2 (ix2 p q)
      = firstStretches (stretchDot m c (rowAt ⟨n, h⟩ p) (colAt ⟨n, h⟩ q)) (n % 4 + 1)
  | 0, h, p, q => after_first m c ⟨0, h⟩ rfl p q
  | n + 1, h, p, q => by
    by_cases h0 : (n + 1) % 4 = 0
    · refine (after_first m c ⟨n + 1, h⟩ h0 p q).trans ?_
      rw [h0]
    · have hk : (n + 1) % 4 = n % 4 + 1 := by omega
      have hlt : n % 4 + 1 < 4 := by omega
      have hsum : ∀ T : Fin 4 → EReal, firstStretches T ((n + 1) % 4 + 1)
          = firstStretches T (n % 4 + 1) + T ⟨(n + 1) % 4, Nat.mod_lt _ (by decide)⟩ := by
        intro T
        have e : (⟨(n + 1) % 4, Nat.mod_lt _ (by decide)⟩ : Fin 4) = ⟨n % 4 + 1, hlt⟩ := Fin.ext hk
        rw [e, hk]
        exact firstStretches_succ T _ hlt
      have ih := scratch_eq c n (Nat.lt_of_succ_lt h) p q
      have hr : rowAt ⟨n, Nat.lt_of_succ_lt h⟩ p = rowAt ⟨n + 1, h⟩ p :=
        Fin.ext (by show 2048 * (n / 16) + p.val = 2048 * ((n + 1) / 16) + p.val; omega)
      have hc : colAt ⟨n, Nat.lt_of_succ_lt h⟩ q = colAt ⟨n + 1, h⟩ q :=
        Fin.ext (by show 1024 * (n / 4 % 4) + q.val = 1024 * ((n + 1) / 4 % 4) + q.val; omega)
      rw [hr, hc] at ih
      refine (after_later m c ⟨n + 1, h⟩ h0 p q).trans ?_
      show (outsAt0 m c n _).2 (ix2 p q) + _ = _
      rw [ih, hsum]

end Cert.KernelIdeal.Accum

end
-- ==== Proof.Arrays.lean ====
/-
  The arrays the region finds, entry by entry, over the extended reals (a change of float format is the identity).

    * activations [8192, 4096]: row `R` is `x[R / 2048, R % 2048, ·]` (the first two axes flattened);
    * weight [4096, 4096]: entry `(k, o)` is the gathered entry `(o / 512, k, o % 512)` (codebook and input feature
      swapped, then codebook and word entry flattened into the output column);
    * bias [1, 4096]: its one row is the bias.
-/
import proofs.«149113_j3255585210641_1_alg».proof.Proof.Blocks

noncomputable section

namespace Cert.KernelIdeal.Arrays

open Cert.KernelIdeal Cert.KernelIdeal.Gen Cert.KernelIdeal.Blocks Idealize.ShloMosaic Idealize.ShloMosaic.TcCoe Idealize.SL.Sem
open Idealize.ShloMosaic.ValueIdx Cert.CodebookLinear

variable (m : (ℓ : Loc nD τ sig) → Buf (Elt Ideal) ℓ)

/-- The batch a flattened row belongs to, and its position inside. -/
abbrev batchOf (R : Fin 8192) : Fin 4 := ⟨R.val / 2048, by have := R.isLt; omega⟩
abbrev seqOf (R : Fin 8192) : Fin 2048 := ⟨R.val % 2048, Nat.mod_lt _ (by decide)⟩

theorem xarr_at (c : Dev nD) (R : Fin 8192) (k : Fin 4096) :
    xarr m c (ix2 R k) = m ((c : Thread nD τ).loc main_arg0) (ix3 (batchOf R) (seqOf R) k) := by
  rw [xarr_eq]
  refine (truncf_apply (ψ := .bf16) _ bitsLt_bf16_f32 _).trans ?_
  refine shapeCast_apply _ shapeCasts_S4x2048x4096_S8192x4096 _ _ ?_
  rw [Shape.rowMajor_val_three, Shape.rowMajor_val_two]
  show (R.val / 2048 * 2048 + R.val % 2048) * 4096 + k.val = R.val * 4096 + k.val
  have := R.isLt
  omega

theorem warr_at (c : Dev nD) (k : Fin 4096) (o : Fin 4096) :
    warr m c (ix2 k o) = gathered m c (ix3 (bookOf o) k (slotOf o)) := by
  rw [warr_eq]
  refine (truncf_apply (ψ := .bf16) _ bitsLt_bf16_f32 _).trans ?_
  refine (shapeCast_apply _ shapeCasts_S4096x8x512_S4096x4096 (ix2 k o) (ix3 k (bookOf o) (slotOf o)) ?_).trans ?_
  · rw [Shape.rowMajor_val_three, Shape.rowMajor_val_two]
    show (k.val * 8 + o.val / 512) * 512 + o.val % 512 = k.val * 4096 + o.val
    have := o.isLt
    omega
  · exact transpose_apply [1, 0, 2] _ transposes_S8x4096x512_S4096x8x512_1_0_2 (ix3 k (bookOf o) (slotOf o))
      (ix3 (bookOf o) k (slotOf o)) (fun b => match b with
        | ⟨0, _⟩ => rfl
        | ⟨1, _⟩ => rfl
        | ⟨2, _⟩ => rfl)

theorem barr_at (c : Dev nD) (o : Fin 4096) :
    barr m c (ix2 (0 : Fin 1) o) = m ((c : Thread nD τ).loc main_arg3) (ix1 o) := by
  rw [barr_eq]
  exact shapeCast_a_1a_apply _ shapeCasts_S4096_S1x4096 (0 : Fin 1) o

end Cert.KernelIdeal.Arrays

end
-- ==== Proof.Result.lean ====
/-
  What the kernel's result array ends holding, and that it is the layer.

  The pallas_call's result [8192, 4096] ends, at row `R` and column `C`, at the four stretch shares added up plus the
  bias of column `C`: the last point of each run of four writes its block back, that block is the running block (by
  then all four shares) plus the bias row, and those 16 blocks tile the array. The line after the region unflattens the
  rows into (batch, position). Joined with the whole-axis sum by `sum_stretches`, this is `linear`.
-/
import proofs.«149113_j3255585210641_1_alg».proof.Proof.Accum
import proofs.«149113_j3255585210641_1_alg».proof.Proof.Arrays

noncomputable section

open scoped BigOperators

namespace Cert.KernelIdeal.Result

open Cert.KernelIdeal Cert.KernelIdeal.Gen Cert.KernelIdeal.Blocks Cert.KernelIdeal.Pieces Cert.KernelIdeal.Payload
open Cert.KernelIdeal.Accum Cert.KernelIdeal.Arrays
open Idealize.ShloMosaic Idealize.ShloMosaic.TcCoe Idealize.SL.Sem Idealize.ShloMosaic.ValueIdx Cert.CodebookLinear
open Idealize.ShloMosaic.Pipeline (Dat)

variable (m : (ℓ : Loc nD τ sig) → Buf (Elt Ideal) ℓ) (ρ : Dev nD → PrngReg)

/-- The pallas_call's result array: the four shares and the bias. -/
def product (c : Dev nD) : Vec Ideal S8192x4096 .f32 := fun j =>
  (∑ b : Fin 4, stretchDot m c (j 0 : Fin 8192) (j 1 : Fin 4096) b) + barr m c (ix2 (0 : Fin 1) (j 1 : Fin 4096))

/-- The block a closing point leaves in the output's buffer is its block of `product`. -/
theorem closing_block_at (c : Dev nD) (t : Fin cfg0.N) (h3 : t.val % 4 = 3) (p : Fin 2048) (q : Fin 1024) :
    (outsAt0 m c t.val t.isLt).1 (ix2 p q) = product m c (ix2 (rowAt t p) (colAt t q)) := by
  have h0 : ¬t.val % 4 = 0 := by omega
  have e4 : t.val % 4 + 1 = 4 := by omega
  rw [outsAt0_C m c t h0 h3]
  dsimp only
  refine (congrFun (output_last (F := Ideal) c (grid0.coords t) (ms0_0 t) (hs0_0 t) (ms0_1 t) (hs0_1 t) (ms0_2 t) (hs0_2 t) (ms0_3 t) (hs0_3 t) scM0_0 (Memref.isWhole_whole _)
    (fun h => h0 ((hcond0_0 t).mp h)) ((hcond0_1 t).mpr h3) (xblk m c t) (wblk m c t) (bblk m c t)
    (outsAt0 m c (t.val - 1) (Nat.lt_of_le_of_lt (Nat.sub_le _ _) t.isLt)).2) (ix2 p q)).trans ?_
  rw [close_at, accumulate_at, blocks_dot, bblk_at, ← after_later m c t h0 p q, scratch_eq m c t.val t.isLt p q, e4,
    firstStretches_four]
  rfl

/-- WHAT A CLOSING POINT WRITES BACK is its block of `product`. -/
theorem flushed_eq (c : Dev nD) (t : Fin cfg0.N) (hf : (cfg0.win 3).flush t = true) :
    (dats m 0 c).flushed 3 t = ((cfg0.win 3).blk t).view.read (Elt Ideal) (product m c) := by
  have h3 : t.val % 4 = 3 := (flush0_3 t).mp hf
  show (cfg0.win 3).cut (grid0.coords t) ((dats m 0 c).after 3 t) = _
  rw [after0_3]
  funext j
  have hj0 : (j 0).val < 2048 := (j 0).isLt
  have hj1 : (j 1).val < 1024 := (j 1).isLt
  show (outsAt0 m c t.val t.isLt).1 j = product m c (((cfg0.win 3).blk t).view.emb j)
  have hj : (j : S2048x1024.Idx) = ix2 (⟨(j 0).val, hj0⟩ : Fin 2048) (⟨(j 1).val, hj1⟩ : Fin 1024) :=
    funext fun a => by match a with | ⟨0, _⟩ => rfl | ⟨1, _⟩ => rfl
  have e : ((cfg0.win 3).blk t).view.emb j = ix2 (rowAt t ⟨(j 0).val, hj0⟩) (colAt t ⟨(j 1).val, hj1⟩) :=
    funext fun a => Fin.ext (by
      match a with
      | ⟨0, _⟩ => show win0_3.index t 0 * 2048 + 1 * (j 0).val = 2048 * (t.val / 16) + (j 0).val; rw [(index_facts t).2.2.2.2.2.2.1]; omega
      | ⟨1, _⟩ => show win0_3.index t 1 * 1024 + 1 * (j 1).val = 1024 * (t.val / 4 % 4) + (j 1).val; rw [(index_facts t).2.2.2.2.2.2.2]; omega)
  rw [e]
  exact (congrArg (outsAt0 m c t.val t.isLt).1 hj).trans (closing_block_at m c t h3 _ _)

/-- An index of the array is in point `t`'s block iff each coordinate is in the block's range on its axis. -/
theorem mem_blk (t : Fin cfg0.N) (i : S8192x4096.Idx) :
    i ∈ ((cfg0.win 3).blk t).view.set ↔ ∀ a : Fin 2, win0_3.index t a * S2048x1024.size a ≤ (i a).val
      ∧ (i a).val < win0_3.index t a * S2048x1024.size a + S2048x1024.size a := by
  show i ∈ ((View.whole main_v13).slice (win0_3.rect t)).set ↔ _
  rw [View.set_slice_whole, Rect.mem_set_unit]
  exact Iff.rfl

/-- Every entry of the array is in the block of a closing point: the one of its row block and column block. -/
theorem covered (i : S8192x4096.Idx) :
    ∃ t : Fin cfg0.N, (cfg0.win 3).flush t = true ∧ i ∈ ((cfg0.win 3).blk t).view.set := by
  have hR : (i 0).val < 8192 := (i 0).isLt
  have hC : (i 1).val < 4096 := (i 1).isLt
  have hN : cfg0.N = 64 := N_0
  have hlt : 16 * ((i 0).val / 2048) + 4 * ((i 1).val / 1024) + 3 < cfg0.N := lt_of_lt_of_eq (by omega) hN.symm
  refine ⟨⟨16 * ((i 0).val / 2048) + 4 * ((i 1).val / 1024) + 3, hlt⟩, (flush0_3 _).mpr (by show (16 * ((i 0).val / 2048) + 4 * ((i 1).val / 1024) + 3) % 4 = 3; omega), ?_⟩
  rw [mem_blk]
  obtain ⟨-, -, -, -, -, -, e0, e1⟩ := index_facts ⟨16 * ((i 0).val / 2048) + 4 * ((i 1).val / 1024) + 3, hlt⟩
  intro a
  match a with
  | ⟨0, _⟩ =>
    show win0_3.index _ 0 * 2048 ≤ (i 0).val ∧ (i 0).val < win0_3.index _ 0 * 2048 + 2048
    rw [e0]
    show (16 * ((i 0).val / 2048) + 4 * ((i 1).val / 1024) + 3) / 16 * 2048 ≤ (i 0).val ∧ (i 0).val < (16 * ((i 0).val / 2048) + 4 * ((i 1).val / 1024) + 3) / 16 * 2048 + 2048
    omega
  | ⟨1, _⟩ =>
    show win0_3.index _ 1 * 1024 ≤ (i 1).val ∧ (i 1).val < win0_3.index _ 1 * 1024 + 1024
    rw [e1]
    show (16 * ((i 0).val / 2048) + 4 * ((i 1).val / 1024) + 3) / 4 % 4 * 1024 ≤ (i 1).val ∧ (i 1).val < (16 * ((i 0).val / 2048) + 4 * ((i 1).val / 1024) + 3) / 4 % 4 * 1024 + 1024
    omega

/-- THE RESULT ARRAY after the region. -/
theorem final (c : Dev nD) : (dats m 0 c).arrAt 3 cfg0.N = product m c :=
  (dats m 0 c).arrAt_eq_of_cover 3 (product m c) (flushed_eq m c) covered

/-- The line after the region unflattens it. -/
theorem tail_eq (c : Dev nD) :
    Pipeline.afterTail₀ cfgs (dats m) 0 (V0 m) [hostOps1] c main_v14
      = shapeCast S4x2048x4096 (product m c) shapeCasts_S8192x4096_S4x2048x4096 := by
  unfold Pipeline.afterTail₀
  show StableHlo.after hostOps1 _ (Proc.devRef .tc main_v14) = _
  after_results
  have hw : Pipeline.withArrays (cfgs 0).spec c (V0 m c) (fun w => (dats m 0 c).arrAt w (cfgs 0).N)
      (Proc.devRef .tc main_v13) = product m c :=
    (Pipeline.withArrays_arr spec0 launch0.win.arr_inj c _ _ 3).trans (final m c)
  funext i
  show shapeCast S4x2048x4096 (Pipeline.withArrays (cfgs 0).spec c (V0 m c) (fun w => (dats m 0 c).arrAt w (cfgs 0).N)
      (Proc.devRef .tc main_v13)) shapeCasts_S8192x4096_S4x2048x4096 i = _
  rw [hw]

/-- The frame run re-posted: the result at the unflattened `product`, the arguments unchanged. -/
theorem run : θ_run defs (onTc (τ := τ) (main (F := Ideal))) ⟨m, fun _ => 0, ρ⟩ fun r => ∀ c : Dev nD,
      r.2.mem ((c.tc : Thread nD τ).loc main_v14) = shapeCast S4x2048x4096 (product m c) shapeCasts_S8192x4096_S4x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v14 (Pipeline.mem_restRefs_of main_v14 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

/-- The activations and the bias as launched, named at their literal types. -/
abbrev xin (c : Dev nD) : Vec Ideal S4x2048x4096 .f32 := m ((c.tc : Thread nD τ).loc main_arg0)
abbrev bin (c : Dev nD) : Vec Ideal S4096 .f32 := m ((c.tc : Thread nD τ).loc main_arg3)

/-- THE KERNEL'S RESULT IS THE LAYER over the gathered array: row `2048 b + s` of the flattened activations is
    `x[b, s, ·]`, the weight's entry `(k, o)` the gathered entry `(o / 512, k, o % 512)`, and the four stretch shares
    are the whole sum over `k`. -/
theorem result_eq (c : Dev nD) :
    shapeCast S4x2048x4096 (product m c) shapeCasts_S8192x4096_S4x2048x4096
      = linear (xin m c) (gathered m c) (bin m c) := by
  funext i
  obtain ⟨b, s, o, rfl⟩ : ∃ (b : Fin 4) (s : Fin 2048) (o : Fin 4096), i = ix3 b s o := ⟨i 0, i 1, i 2, eq_ix3 i⟩
  have hb := b.isLt
  have hs := s.isLt
  have hR : 2048 * b.val + s.val < 8192 := by omega
  refine (shapeCast_apply (product m c) shapeCasts_S8192x4096_S4x2048x4096 (ix3 b s o) (ix2 (⟨2048 * b.val + s.val, hR⟩ : Fin 8192) o) ?_).trans ?_
  · rw [Shape.rowMajor_val_three, Shape.rowMajor_val_two]
    show (2048 * b.val + s.val) * 4096 + o.val = (b.val * 2048 + s.val) * 4096 + o.val
    omega
  · have eb : batchOf ⟨2048 * b.val + s.val, hR⟩ = b := Fin.ext (by show (2048 * b.val + s.val) / 2048 = b.val; omega)
    have es : seqOf ⟨2048 * b.val + s.val, hR⟩ = s := Fin.ext (by show (2048 * b.val + s.val) % 2048 = s.val; omega)
    show (∑ b' : Fin 4, stretchDot m c ⟨2048 * b.val + s.val, hR⟩ o b') + barr m c (ix2 (0 : Fin 1) o)
      = (∑ k : Fin 4096, xin m c (ix3 b s k) * gathered m c (ix3 (bookOf o) k (slotOf o)))
        + bin m c (ix1 o)
    rw [barr_at, sum_stretches (fun k => xin m c (ix3 b s k) * gathered m c (ix3 (bookOf o) k (slotOf o)))]
    refine congrArg (· + _) (Finset.sum_congr rfl fun b' _ => ?_)
    unfold stretchDot
    refine Finset.sum_congr rfl fun r _ => ?_
    rw [xarr_at, warr_at, eb, es]

end Cert.KernelIdeal.Result

end
-- ==== Proof.lean ====
/-
  A linear layer whose weight is stored as 8 codebooks of 256 code words of 512 entries.

  For each input feature `k` and codebook `h` an integer index picks a code word; `g[h, k, d]` is entry `d` of that
  word (the same gather in both programs, applied to the same arguments, so it is never opened). Output column `o`
  belongs to codebook `o / 512`, word entry `o % 512`, and the layer is

      y[b, s, o] = (∑ k < 4096, x[b, s, k] · g[o / 512, k, o % 512]) + bias[o].

  The reference builds the [4096 (output), 4096 (input)] weight by a transposition and a flattening and contracts
  `x`'s last axis against the weight's last axis. The kernel builds the transposed weight, flattens `x` to
  [8192, 4096], and tiles the product 4 × 4 × 4: for each block of 2048 rows and 1024 columns it runs through the four
  stretches of 1024 positions of the contracted axis, keeping a running block that starts at zero, adds each stretch's
  block product, and at the fourth stretch adds the bias row and is written out. Over the extended reals, with every
  change of float format the identity, both are the displayed formula: the only law used is that a sum over 4096
  positions is the sum of its four consecutive stretches, which holds in every commutative monoid (no finiteness of
  the inputs is needed, and the precondition is never opened).

  The frames of the two kernel programs are the generated ones; the reference's frame is its generated run with the
  result dropped; the idealization rewrote nothing.
-/
import proofs.«149113_j3255585210641_1_alg».proof.Defs
import proofs.«149113_j3255585210641_1_alg».proof.Proof.Gen.Kernel
import proofs.«149113_j3255585210641_1_alg».proof.Proof.Gen.Kernel.Skeleton
import proofs.«149113_j3255585210641_1_alg».proof.Proof.Gen.Kernel.Launch
import proofs.«149113_j3255585210641_1_alg».proof.Proof.Gen.Kernel.Points
import proofs.«149113_j3255585210641_1_alg».proof.Proof.Gen.Kernel.Frame
import proofs.«149113_j3255585210641_1_alg».proof.Proof.Gen.KernelIdeal
import proofs.«149113_j3255585210641_1_alg».proof.Proof.Gen.KernelIdeal.Skeleton
import proofs.«149113_j3255585210641_1_alg».proof.Proof.Gen.KernelIdeal.Launch
import proofs.«149113_j3255585210641_1_alg».proof.Proof.Gen.KernelIdeal.Points
import proofs.«149113_j3255585210641_1_alg».proof.Proof.Gen.KernelIdeal.Frame
import proofs.«149113_j3255585210641_1_alg».proof.Proof.Gen.ReferenceIdeal
import proofs.«149113_j3255585210641_1_alg».proof.Proof.Gen.ReferenceIdeal.Run
import proofs.«149113_j3255585210641_1_alg».proof.Proof.Gen.ReferenceIdeal.Read
import proofs.«149113_j3255585210641_1_alg».proof.Proof.Gen.Pre_finite_inputs
import proofs.«149113_j3255585210641_1_alg».proof.Proof.RefValue
import proofs.«149113_j3255585210641_1_alg».proof.Proof.Result
import Idealize.ShloMosaic.Adequacy
import Idealize.ShloMosaic.Init

noncomputable section

namespace Cert.Proof

open Idealize.ShloMosaic Idealize.ShloMosaic.TcCoe Idealize.SL.Sem Cert.CodebookLinear

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The two programs gather the same code words from the same arguments. -/
theorem gathered_eq (m : (ℓ : Loc Cert.KernelIdeal.nD Cert.KernelIdeal.τ Cert.KernelIdeal.sig) → Buf (Elt Ideal) ℓ)
    (c : Dev Cert.KernelIdeal.nD) :
    Cert.ReferenceIdeal.Read.val_main_v6 (F := Ideal)
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
      = Cert.KernelIdeal.Blocks.gathered m c := rfl

/-- Both programs end at the layer `linear` of the arguments and the gathered array. -/
theorem algebraic : Cert.algebraic_KernelIdeal_ReferenceIdeal := by
  intro m ρ m' ρ' _ hagree
  refine ⟨fun c => linear (m ((c.tc : Thread Cert.KernelIdeal.nD Cert.KernelIdeal.τ).loc Cert.KernelIdeal.main_arg0))
      (Cert.KernelIdeal.Blocks.gathered m c)
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Result.result_eq m c), (h c).2⟩)
      (Cert.KernelIdeal.Result.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v12_eq, Cert.ReferenceIdeal.RefValue.reference_eq,
      (hagree c).1, (hagree c).2.1, (hagree c).2.2.1, (hagree c).2.2.2, gathered_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
